-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S16x4096 : Shape := ⟨2, ![16, 4096]⟩
abbrev S16384x16 : Shape := ⟨2, ![16384, 16]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S16x4096 : S_.BroadcastsInDim S16x4096 (![] : Fin 0 → Fin S16x4096.rank)
  reducesTo_S16x4096_S_d0_1 : S16x4096.ReducesTo [0, 1] S_
  bcast_S_S16384x16 : S_.BroadcastsInDim S16384x16 (![] : Fin 0 → Fin S16384x16.rank)
  reducesTo_S16384x16_S_d0_1 : S16384x16.ReducesTo [0, 1] S_

variable [Facts]

def fn_part1 {F : FTy → Type} [FloatOps F] (main_arg4 : FVec F S16384x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16384x16 .f32 := Host.absf main_arg4
  let main_cst_6 : FVec F S_ .f32 := constant S_ .f32 0x7F800000#32
  let main_v20 : FVec F S16384x16 .f32 := broadcastInDim S16384x16 ![] bcast_S_S16384x16 main_cst_6
  let main_v21 : IVec S16384x16 1 := cmpf .olt main_v19 main_v20
  let main_c_7 : IVec S_ 1 := constantI S_ 1 1#1
  let main_v22 : IVec S_ 1 := (fun x v => Host.reduce IntOp.andi x v reducesTo_S16384x16_S_d0_1 h_S_) main_v21 main_c_7
  let main_v23 : IVec S_ 1 := andi main_v18 main_v22
  main_v23

def fn {F : FTy → Type} [FloatOps F] (main_arg0 : FVec F S2x2048x4096 .f32) (main_arg1 : FVec F S16384x4096 .f32) (main_arg2 : FVec F S16384 .f32) (main_arg3 : FVec F S16x4096 .f32) (main_arg4 : FVec F S16384x16 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S2x2048x4096 : Shape := ⟨3, ![2, 2048, 4096]⟩
abbrev S16384x4096 : Shape := ⟨2, ![16384, 4096]⟩
abbrev S16384 : Shape := ⟨1, ![16384]⟩
abbrev S16x4096 : Shape := ⟨2, ![16, 4096]⟩
abbrev S16384x16 : Shape := ⟨2, ![16384, 16]⟩
abbrev S4096x4096 : Shape := ⟨2, ![4096, 4096]⟩
abbrev S4096x16384 : Shape := ⟨2, ![4096, 16384]⟩
abbrev S256x4096 : Shape := ⟨2, ![256, 4096]⟩
abbrev S512x4096 : Shape := ⟨2, ![512, 4096]⟩
abbrev S512x16 : Shape := ⟨2, ![512, 16]⟩
abbrev S256x512 : Shape := ⟨2, ![256, 512]⟩
abbrev S256x16 : Shape := ⟨2, ![256, 16]⟩
abbrev S2x2048x16384 : Shape := ⟨3, ![2, 2048, 16384]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384, .f32⟩
  | .hbm, ⟨3, _⟩ => ⟨S16x4096, .f32⟩
  | .hbm, ⟨4, _⟩ => ⟨S16384x16, .f32⟩
  | .hbm, ⟨5, _⟩ => ⟨S4096x4096, .f32⟩
  | .hbm, ⟨6, _⟩ => ⟨S4096x16384, .f32⟩
  | .hbm, ⟨7, _⟩ => ⟨S2x2048x16384, .f32⟩
  | .local _ .vmem, ⟨0, _⟩ => ⟨S256x4096, .f32⟩
  | .local _ .vmem, ⟨1, _⟩ => ⟨S256x4096, .f32⟩
  | .local _ .vmem, ⟨2, _⟩ => ⟨S512x4096, .f32⟩
  | .local _ .vmem, ⟨3, _⟩ => ⟨S512x4096, .f32⟩
  | .local _ .vmem, ⟨4, _⟩ => ⟨S16x4096, .f32⟩
  | .local _ .vmem, ⟨5, _⟩ => ⟨S512x16, .f32⟩
  | .local _ .vmem, ⟨6, _⟩ => ⟨S512x16, .f32⟩
  | .local _ .vmem, ⟨7, _⟩ => ⟨S256x512, .f32⟩
  | .local _ .vmem, ⟨8, _⟩ => ⟨S256x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S16x4096_S16x4096_0_0 : ∀ a, (![0, 0] : Fin 2 → Nat) a + S16x4096.size a ≤ S16x4096.size a
  h_S16x4096 : 0 < S16x4096.numel
  inb_S512x16_S512x16_0_0 : ∀ a, (![0, 0] : Fin 2 → Nat) a + S512x16.size a ≤ S512x16.size a
  h_S512x16 : 0 < S512x16.numel
  inb_S256x512_S256x512_0_0 : ∀ a, (![0, 0] : Fin 2 → Nat) a + S256x512.size a ≤ S256x512.size a
  h_S256x512 : 0 < S256x512.numel
  shapeCasts_S4096x16384_S2x2048x16384 : S4096x16384.ShapeCasts S2x2048x16384
  dot_S256x4096_S512x4096_S256x512_1_1_0_0_n_n_wf : DotDims.WF S256x4096 S512x4096 S256x512 [1] [1] [0] [0] [] []
  dot_S256x4096_S16x4096_S256x16_1_1_0_0_n_n_wf : DotDims.WF S256x4096 S16x4096 S256x16 [1] [1] [0] [0] [] []
  dot_S256x16_S512x16_S256x512_1_1_0_0_n_n_wf : DotDims.WF S256x16 S512x16 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S16384x16.size a
  hwx0_3 : ∀ i : grid0.Coords, EltTy.bits .f32 = 32 ∨ (Rect.block (s := S16384x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x16384.size a
  hwx0_4 : ∀ i : grid0.Coords, EltTy.bits .f32 = 32 ∨ (Rect.block (s := S4096x16384) S256x512.size (cc0_transform_4 i) (hinb0_4 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S512x16_S256x512_1_1_0_0_n_n : DotDims S256x16 S512x16 S256x512 where
  lhsContracting := [1]
  rhsContracting := [1]
  lhsNonContracting := [0]
  rhsNonContracting := [0]
  lhsBatch := []
  rhsBatch := []
  wf := dot_S256x16_S512x16_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S16x4096 : Shape := ⟨2, ![16, 4096]⟩
abbrev S16384x16 : Shape := ⟨2, ![16384, 16]⟩
abbrev S2x2048x16384 : Shape := ⟨3, ![2, 2048, 16384]⟩
abbrev S2x2048x16 : Shape := ⟨3, ![2, 2048, 16]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384, .f32⟩
  | .hbm, ⟨3, _⟩ => ⟨S16x4096, .f32⟩
  | .hbm, ⟨4, _⟩ => ⟨S16384x16, .f32⟩
  | .hbm, ⟨5, _⟩ => ⟨S2x2048x16384, .f32⟩
  | .hbm, ⟨6, _⟩ => ⟨S2x2048x16, .f32⟩
  | .hbm, ⟨7, _⟩ => ⟨S2x2048x16384, .f32⟩
  | .hbm, ⟨8, _⟩ => ⟨S_, .f32⟩
  | .hbm, ⟨9, _⟩ => ⟨S2x2048x16384, .f32⟩
  | .hbm, ⟨10, _⟩ => ⟨S2x2048x16384, .f32⟩
  | .hbm, ⟨11, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S2x2048x16384 : S_.BroadcastsInDim S2x2048x16384 (![] : Fin 0 → Fin S2x2048x16384.rank)
  dot_S2x2048x4096_S16384x4096_S2x2048x16384_2_1_01_0_n_n_wf : DotDims.WF S2x2048x4096 S16384x4096 S2x2048x16384 [2] [1] [0, 1] [0] [] []
  dot_S2x2048x4096_S16x4096_S2x2048x16_2_1_01_0_n_n_wf : DotDims.WF S2x2048x4096 S16x4096 S2x2048x16 [2] [1] [0, 1] [0] [] []
  dot_S2x2048x16_S16384x16_S2x2048x16384_2_1_01_0_n_n_wf : DotDims.WF S2x2048x16 S16384x16 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf
def dot_S2x2048x4096_S16x4096_S2x2048x16_2_1_01_0_n_n : DotDims S2x2048x4096 S16x4096 S2x2048x16 where
  lhsContracting := [2]
  rhsContracting := [1]
  lhsNonContracting := [0, 1]
  rhsNonContracting := [0]
  lhsBatch := []
  rhsBatch := []
  wf := dot_S2x2048x4096_S16x4096_S2x2048x16_2_1_01_0_n_n_wf
def dot_S2x2048x16_S16384x16_S2x2048x16384_2_1_01_0_n_n : DotDims S2x2048x16 S16384x16 S2x2048x16384 where
  lhsContracting := [2]
  rhsContracting := [1]
  lhsNonContracting := [0, 1]
  rhsNonContracting := [0]
  lhsBatch := []
  rhsBatch := []
  wf := dot_S2x2048x16_S16384x16_S2x2048x16384_2_1_01_0_n_n_wf

class Facts : Prop extends Facts₀ where

variable [Facts]
-- ==== Proof.TileProducts.lean ====
/-
  The three matrix products of one tile, read at an entry, on the extended reals.

  Every product in the tile contracts the SECOND axis of both operands — a left factor of shape [M, K] against a right
  factor of shape [N, K], no batch axis, result [M, N] — into a zero accumulator. Its entry at row p and column q is

      ∑ k, L[p, k] · R[q, k].

  The contraction's index set has a single axis, of extent K; the sum over it is re-indexed by that axis's coordinate.
  Off the contracted axis the left factor is read at the result's row and the right factor at the result's column.
  The three products: the tile of activations against the tile of weights (K = 4096), the same activations against
  the low-rank factor A (K = 4096, N = 16), and that 16-column intermediate against the tile of the factor B (K = 16).
-/
import proofs.«141950_j82660940578996_1_alg».proof.Proof.Gen.KernelIdeal
import Idealize.ShloMosaic.PureOps.Ideal.Laws
import Idealize.ShloMosaic.Lib.ValueIdx

noncomputable section

open scoped BigOperators

namespace Cert.KernelIdeal.TileProducts

open Cert.KernelIdeal Cert.KernelIdeal.Gen Idealize.ShloMosaic Idealize.ShloMosaic.ValueIdx

/-! ## Activations against weights: [256, 4096] · [512, 4096]ᵀ -/

/-- The left factor's row is the result's row. -/
theorem lhs_xw_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
/-- The left factor's column is the contraction's coordinate. -/
theorem lhs_xw_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
/-- The right factor's row is the result's column. -/
theorem rhs_xw_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
/-- The right factor's column is the contraction's coordinate. -/
theorem rhs_xw_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- Entry (p, q) of activations · weightsᵀ is the sum over the 4096 features of x[p, k] · w[q, k]. -/
theorem xw_at {φ₁ φ₂ : FTy} (x : FVec Ideal S256x4096 φ₁) (w : FVec Ideal S512x4096 φ₂) (p : Fin 256) (q : Fin 512) :
    FloatOps.matmul dot_S256x4096_S512x4096_S256x512_1_1_0_0_n_n none x w (constant S256x512 .f32 0x00000000#32) (ix2 p q)
      = ∑ k : Fin 4096, x (ix2 p k) * w (ix2 q k) := by
  rw [Ideal.matmul_constant_zero_apply, ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p q) ((contrEquiv1 dot_S256x4096_S512x4096_S256x512_1_1_0_0_n_n 4096 rfl rfl).symm k) = ix2 p k := funext fun a => Fin.ext (by
    match a with
    | ⟨0, _⟩ => exact lhs_xw_0 _ _
    | ⟨1, _⟩ => exact (lhs_xw_1 _ _).trans hk)
  have er : dot_S256x4096_S512x4096_S256x512_1_1_0_0_n_n.rhsIdx (ix2 p q) ((contrEquiv1 dot_S256x4096_S512x4096_S256x512_1_1_0_0_n_n 4096 rfl rfl).symm k) = ix2 q k := funext fun a => Fin.ext (by
    match a with
    | ⟨0, _⟩ => exact rhs_xw_0 _ _
    | ⟨1, _⟩ => exact (rhs_xw_1 _ _).trans hk)
  rw [el, er]

/-! ## Activations against the low-rank factor A: [256, 4096] · [16, 4096]ᵀ -/

/-- The left factor's row is the result's row. -/
theorem lhs_xa_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
/-- The left factor's column is the contraction's coordinate. -/
theorem lhs_xa_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
/-- The right factor's row is the result's column. -/
theorem rhs_xa_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
/-- The right factor's column is the contraction's coordinate. -/
theorem rhs_xa_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q

/-- Entry (p, r) of activations · Aᵀ is the sum over the 4096 features of x[p, k] · a[r, k]. -/
theorem xa_at {φ₁ φ₂ : FTy} (x : FVec Ideal S256x4096 φ₁) (a : FVec Ideal S16x4096 φ₂) (p : Fin 256) (r : Fin 16) :
    FloatOps.matmul dot_S256x4096_S16x4096_S256x16_1_1_0_0_n_n none x a (constant S256x16 .f32 0x00000000#32) (ix2 p r)
      = ∑ k : Fin 4096, x (ix2 p k) * a (ix2 r k) := by
  rw [Ideal.matmul_constant_zero_apply, ← Equiv.sum_comp (contrEquiv1 dot_S256x4096_S16x4096_S256x16_1_1_0_0_n_n 4096 rfl rfl).symm]
  refine Finset.sum_congr rfl fun k _ => ?_
  have hk := contrEquiv1_symm_val dot_S256x4096_S16x4096_S256x16_1_1_0_0_n_n 4096 rfl rfl k
  have el : dot_S256x4096_S16x4096_S256x16_1_1_0_0_n_n.lhsIdx (ix2 p r) ((contrEquiv1 dot_S256x4096_S16x4096_S256x16_1_1_0_0_n_n 4096 rfl rfl).symm k) = ix2 p k := funext fun a => Fin.ext (by
    match a with
    | ⟨0, _⟩ => exact lhs_xa_0 _ _
    | ⟨1, _⟩ => exact (lhs_xa_1 _ _).trans hk)
  have er : dot_S256x4096_S16x4096_S256x16_1_1_0_0_n_n.rhsIdx (ix2 p r) ((contrEquiv1 dot_S256x4096_S16x4096_S256x16_1_1_0_0_n_n 4096 rfl rfl).symm k) = ix2 r k := funext fun a => Fin.ext (by
    match a with
    | ⟨0, _⟩ => exact rhs_xa_0 _ _
    | ⟨1, _⟩ => exact (rhs_xa_1 _ _).trans hk)
  rw [el, er]

/-! ## The 16-column intermediate against the low-rank factor B: [256, 16] · [512, 16]ᵀ -/

/-- The left factor's row is the result's row. -/
theorem lhs_ub_0 (i : S256x512.Idx) (q : dot_S256x16_S512x16_S256x512_1_1_0_0_n_n.contr.Idx) :
    (dot_S256x16_S512x16_S256x512_1_1_0_0_n_n.lhsIdx i q 0).val = (i 0).val := by
  unfold DotDims.lhsIdx
  rw [dif_neg (show ¬(0 : Fin S256x16.rank) ∈ dot_S256x16_S512x16_S256x512_1_1_0_0_n_n.lhsBatch by decide), dif_pos (show (0 : Fin S256x16.rank) ∈ dot_S256x16_S512x16_S256x512_1_1_0_0_n_n.lhsNonContracting by decide)]
  rfl
/-- The left factor's column is the contraction's coordinate. -/
theorem lhs_ub_1 (i : S256x512.Idx) (q : dot_S256x16_S512x16_S256x512_1_1_0_0_n_n.contr.Idx) :
    (dot_S256x16_S512x16_S256x512_1_1_0_0_n_n.lhsIdx i q 1).val = (q ⟨0, by decide⟩).val :=
  dot_S256x16_S512x16_S256x512_1_1_0_0_n_n.lhsIdx_val_of_single rfl i q
/-- The right factor's row is the result's column. -/
theorem rhs_ub_0 (i : S256x512.Idx) (q : dot_S256x16_S512x16_S256x512_1_1_0_0_n_n.contr.Idx) :
    (dot_S256x16_S512x16_S256x512_1_1_0_0_n_n.rhsIdx i q 0).val = (i 1).val := by
  unfold DotDims.rhsIdx
  rw [dif_neg (show ¬(0 : Fin S512x16.rank) ∈ dot_S256x16_S512x16_S256x512_1_1_0_0_n_n.rhsBatch by decide), dif_pos (show (0 : Fin S512x16.rank) ∈ dot_S256x16_S512x16_S256x512_1_1_0_0_n_n.rhsNonContracting by decide)]
  rfl
/-- The right factor's column is the contraction's coordinate. -/
theorem rhs_ub_1 (i : S256x512.Idx) (q : dot_S256x16_S512x16_S256x512_1_1_0_0_n_n.contr.Idx) :
    (dot_S256x16_S512x16_S256x512_1_1_0_0_n_n.rhsIdx i q 1).val = (q ⟨0, by decide⟩).val :=
  dot_S256x16_S512x16_S256x512_1_1_0_0_n_n.rhsIdx_val_of_single rfl i q

/-- Entry (p, q) of intermediate · Bᵀ is the sum over the 16 ranks of u[p, r] · b[q, r]. -/
theorem ub_at {φ₁ φ₂ : FTy} (u : FVec Ideal S256x16 φ₁) (b : FVec Ideal S512x16 φ₂) (p : Fin 256) (q : Fin 512) :
    FloatOps.matmul dot_S256x16_S512x16_S256x512_1_1_0_0_n_n none u b (constant S256x512 .f32 0x00000000#32) (ix2 p q)
      = ∑ r : Fin 16, u (ix2 p r) * b (ix2 q r) := by
  rw [Ideal.matmul_constant_zero_apply, ← Equiv.sum_comp (contrEquiv1 dot_S256x16_S512x16_S256x512_1_1_0_0_n_n 16 rfl rfl).symm]
  refine Finset.sum_congr rfl fun r _ => ?_
  have hr := contrEquiv1_symm_val dot_S256x16_S512x16_S256x512_1_1_0_0_n_n 16 rfl rfl r
  have el : dot_S256x16_S512x16_S256x512_1_1_0_0_n_n.lhsIdx (ix2 p q) ((contrEquiv1 dot_S256x16_S512x16_S256x512_1_1_0_0_n_n 16 rfl rfl).symm r) = ix2 p r := funext fun a => Fin.ext (by
    match a with
    | ⟨0, _⟩ => exact lhs_ub_0 _ _
    | ⟨1, _⟩ => exact (lhs_ub_1 _ _).trans hr)
  have er : dot_S256x16_S512x16_S256x512_1_1_0_0_n_n.rhsIdx (ix2 p q) ((contrEquiv1 dot_S256x16_S512x16_S256x512_1_1_0_0_n_n 16 rfl rfl).symm r) = ix2 q r := funext fun a => Fin.ext (by
    match a with
    | ⟨0, _⟩ => exact rhs_ub_0 _ _
    | ⟨1, _⟩ => exact (rhs_ub_1 _ _).trans hr)
  rw [el, er]

end Cert.KernelIdeal.TileProducts

end
-- ==== Proof.TileValue.lean ====
/-
  What one grid point computes, entry by entry, on the extended reals.

  The body loads a [256, 4096] tile x of activations, a [512, 4096] tile w of weights, the whole [16, 4096] factor a
  and a [512, 16] tile b of the other factor, narrows each to the matrix unit's input format (the identity on
  extended reals), forms x·wᵀ, then (x·aᵀ)·bᵀ through a narrowed [256, 16] intermediate, and stores

      x·wᵀ + ((x·aᵀ)·bᵀ) · 2.

  Entry (p, q) of that tile is therefore
      ∑_d x[p, d]·w[q, d] + ( ∑_r ( ∑_d x[p, d]·a[r, d] ) · b[q, r] ) · 2.
-/
import proofs.«141950_j82660940578996_1_alg».proof.Proof.Gen.KernelIdeal.Skeleton
import proofs.«141950_j82660940578996_1_alg».proof.Proof.TileProducts
import Idealize.ShloMosaic.Lib.Pipeline.Value

noncomputable section

open scoped BigOperators

namespace Cert.KernelIdeal.TileValue

open Cert.KernelIdeal Cert.KernelIdeal.Gen Idealize.ShloMosaic Idealize.ShloMosaic.ValueIdx

/-- The stored tile at entry (p, q), from the four loaded tiles. -/
theorem tile_at (x : Vec Ideal S256x4096 .f32) (w : Vec Ideal S512x4096 .f32) (a : Vec Ideal S16x4096 .f32)
    (b : Vec Ideal S512x16 .f32) (p : Fin 256) (q : Fin 512) :
    k0_pay1 (F := Ideal) x w a b (ix2 p q)
      = (∑ d : Fin 4096, x (ix2 p d) * w (ix2 q d))
        + (∑ r : Fin 16, (∑ d : Fin 4096, x (ix2 p d) * a (ix2 r d)) * b (ix2 q r)) * Ideal.ofBits .f32 0x40000000#32 := by
  unfold k0_pay1
  simp only [matmul]
  rw [addf_apply, mulf_apply, broadcast_apply, TileProducts.xw_at, TileProducts.ub_at]
  simp only [truncf_apply, shapeCast_self, TileProducts.xa_at]
  rfl

end Cert.KernelIdeal.TileValue

end
-- ==== Proof.LoraSpec.lean ====
/-
  The low-rank-adapted linear layer as one function of its arguments, on the extended reals.

  For an activation row x ∈ ℝ^4096, weights W [16384, 4096] and low-rank factors A [16, 4096], B [16384, 16], output
  feature o is

      ∑_d x_d · W[o, d]  +  ( ∑_r ( ∑_d x_d · A[r, d] ) · B[o, r] ) · 2,

  the base projection plus the rank-16 correction scaled by alpha / rank = 2. The layer applies this to every row of
  a [2, 2048, 4096] batch of activations; the same rows, listed as a [4096, 4096] matrix in row-major order (row
  2048·b + s is row (b, s)), give the same numbers listed as a [4096, 16384] matrix. No law of arithmetic is used
  here beyond reading both listings at matching rows, so nothing is asked of the entries: they may be infinite.
-/
import Idealize.ShloMosaic.PureOps.Ideal
import Idealize.ShloMosaic.Lib.ValueIdx
import Idealize.ShloMosaic.Lib.Pipeline.Value

noncomputable section

open scoped BigOperators

namespace Cert.Lora

open Idealize.ShloMosaic Idealize.ShloMosaic.ValueIdx

/-- Output feature o of one activation row: base projection plus twice the rank-16 correction. -/
def entry (xrow : Fin 4096 → EReal) (w : FVec Ideal ⟨2, ![16384, 4096]⟩ .f32) (a : FVec Ideal ⟨2, ![16, 4096]⟩ .f32)
    (b : FVec Ideal ⟨2, ![16384, 16]⟩ .f32) (o : Fin 16384) : EReal :=
  (∑ d : Fin 4096, xrow d * w (ix2 o d))
    + (∑ r : Fin 16, (∑ d : Fin 4096, xrow d * a (ix2 r d)) * b (ix2 o r)) * Ideal.ofBits .f32 0x40000000#32

/-- The layer on a [2, 2048, 4096] batch: entry (b, s, o) is feature o of row (b, s). -/
def batched (x : FVec Ideal ⟨3, ![2, 2048, 4096]⟩ .f32) (w : FVec Ideal ⟨2, ![16384, 4096]⟩ .f32)
    (a : FVec Ideal ⟨2, ![16, 4096]⟩ .f32) (b : FVec Ideal ⟨2, ![16384, 16]⟩ .f32) : FVec Ideal ⟨3, ![2, 2048, 16384]⟩ .f32 :=
  fun i => entry (fun d => x (ix3 (i 0) (i 1) d)) w a b (i 2)

/-- The layer on the rows listed as a matrix: entry (m, o) is feature o of row m. -/
def flat (x : FVec Ideal ⟨2, ![4096, 4096]⟩ .f32) (w : FVec Ideal ⟨2, ![16384, 4096]⟩ .f32)
    (a : FVec Ideal ⟨2, ![16, 4096]⟩ .f32) (b : FVec Ideal ⟨2, ![16384, 16]⟩ .f32) : FVec Ideal ⟨2, ![4096, 16384]⟩ .f32 :=
  fun i => entry (fun d => x (ix2 (i 0) d)) w a b (i 1)

/-- Row 2048·b + s of the activations listed as a matrix is row (b, s) of the batch. -/
theorem flat_row (x : FVec Ideal ⟨3, ![2, 2048, 4096]⟩ .f32)
    (h : (⟨3, ![2, 2048, 4096]⟩ : Shape).ShapeCasts ⟨2, ![4096, 4096]⟩) (bb : Fin 2) (s : Fin 2048) (d : Fin 4096)
    (hm : bb.val * 2048 + s.val < 4096) :
    shapeCast (⟨2, ![4096, 4096]⟩ : Shape) x h (ix2 ⟨bb.val * 2048 + s.val, hm⟩ d) = x (ix3 bb s d) :=
  shapeCast_apply x h _ _ (by
    rw [Shape.rowMajor_val_two, Shape.rowMajor_val_three]
    rfl)

/-- Listing the matrix result back as a batch gives the layer on the batch. -/
theorem batched_of_flat (x : FVec Ideal ⟨3, ![2, 2048, 4096]⟩ .f32) (w : FVec Ideal ⟨2, ![16384, 4096]⟩ .f32)
    (a : FVec Ideal ⟨2, ![16, 4096]⟩ .f32) (b : FVec Ideal ⟨2, ![16384, 16]⟩ .f32)
    (h₁ : (⟨3, ![2, 2048, 4096]⟩ : Shape).ShapeCasts ⟨2, ![4096, 4096]⟩)
    (h₂ : (⟨2, ![4096, 16384]⟩ : Shape).ShapeCasts ⟨3, ![2, 2048, 16384]⟩) :
    shapeCast (⟨3, ![2, 2048, 16384]⟩ : Shape) (flat (shapeCast (⟨2, ![4096, 4096]⟩ : Shape) x h₁) w a b) h₂ = batched x w a b := by
  funext i
  obtain ⟨bb, s, o, rfl⟩ : ∃ (bb : Fin 2) (s : Fin 2048) (o : Fin 16384), i = ix3 bb s o := ⟨i 0, i 1, i 2, eq_ix3 i⟩
  have hm : bb.val * 2048 + s.val < 4096 := by have := bb.isLt; have := s.isLt; omega
  rw [shapeCast_apply (flat (shapeCast (⟨2, ![4096, 4096]⟩ : Shape) x h₁) w a b) h₂ (ix3 bb s o) (ix2 ⟨bb.val * 2048 + s.val, hm⟩ o) (by
    rw [Shape.rowMajor_val_two, Shape.rowMajor_val_three]
    rfl)]
  show entry (fun d => shapeCast (⟨2, ![4096, 4096]⟩ : Shape) x h₁ (ix2 ⟨bb.val * 2048 + s.val, hm⟩ d)) w a b o
    = entry (fun d => x (ix3 bb s d)) w a b o
  exact congrArg (fun row => entry row w a b o) (funext fun d => flat_row x h₁ bb s d hm)

end Cert.Lora

end
-- ==== Proof.TileReads.lean ====
/-
  Where each grid point's tiles sit in their arrays, and what the point writes back.

  The grid has 32 × 16 points, the column-tile index slow and the row-tile index fast: point t works on row tile
  t mod 16 (256 rows each) and column tile t div 16 (512 output features each). It reads rows
  256·(t mod 16) + p of the activation matrix, rows 512·(t div 16) + q of the weights and of the factor B, and all of
  the factor A; it writes the [256, 512] tile whose entry (p, q) is entry (256·(t mod 16) + p, 512·(t div 16) + q) of
  the result matrix. Since an output entry depends only on its own activation row and its own weight and B rows,
  the tile a point writes back is exactly that block of the layer's result on the whole matrices.
-/
import proofs.«141950_j82660940578996_1_alg».proof.Proof.Gen.KernelIdeal.Frame
import proofs.«141950_j82660940578996_1_alg».proof.Proof.TileValue
import proofs.«141950_j82660940578996_1_alg».proof.Proof.LoraSpec
import Idealize.ShloMosaic.Lib.Pipeline.Value

noncomputable section

open scoped BigOperators

namespace Cert.KernelIdeal.TileReads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the grid, in closed form: row tile t mod 16, column tile t div 16. -/
theorem tile_of_point : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0
    ∧ win0_4.index t (0 : Fin 2) = t.val % 16 ∧ win0_4.index t (1 : Fin 2) = t.val / 16 :=
  (by decide +kernel : ∀ t : Fin grid0.N, _)

theorem point_lt (t : Fin cfg0.N) : t.val < 512 := lt_of_lt_of_eq t.isLt N_0

/-- The array row of tile row p at point t. -/
def row (t : Fin cfg0.N) (p : Fin 256) : Fin 4096 :=
  ⟨t.val % 16 * 256 + p.val, by have := p.isLt; omega⟩
/-- The array column (output feature) of tile column q at point t. -/
def col (t : Fin cfg0.N) (q : Fin 512) : Fin 16384 :=
  ⟨t.val / 16 * 512 + q.val, by have := q.isLt; have := point_lt t; omega⟩

/-- The output tile's entry (p, q) is the result matrix's entry (row, col). -/
theorem out_at (t : Fin cfg0.N) (p : Fin 256) (q : Fin 512) :
    ((cfg0.win 4).blk t).view.emb (ix2 p q) = ix2 (row t p) (col t q) := by
  obtain ⟨-, -, -, -, -, -, -, -, e0, e1⟩ := tile_of_point t
  funext a; apply Fin.ext
  match a with
  | ⟨0, _⟩ => show win0_4.index t (0 : Fin 2) * 256 + 1 * p.val = t.val % 16 * 256 + p.val; omega
  | ⟨1, _⟩ => show win0_4.index t (1 : Fin 2) * 512 + 1 * q.val = t.val / 16 * 512 + q.val; omega

/-- The activation tile's entry (p, d) is the activation matrix's entry (row, d). -/
theorem x_at (c : Dev nD) (t : Fin cfg0.N) (p : Fin 256) (d : Fin 4096) :
    iblk m c 0 t (ix2 p d) = V m c main_v0 (ix2 (row t p) d) := by
  obtain ⟨e0, e1, -⟩ := tile_of_point t
  show V m c main_v0 (((cfg0.win 0).blk t).view.emb (ix2 p d)) = V m c main_v0 (ix2 (row t p) d)
  refine congrArg (V m c main_v0) (funext fun a => Fin.ext ?_)
  match a with
  | ⟨0, _⟩ => show win0_0.index t (0 : Fin 2) * 256 + 1 * p.val = t.val % 16 * 256 + p.val; omega
  | ⟨1, _⟩ => show win0_0.index t (1 : Fin 2) * 4096 + 1 * d.val = d.val; omega

/-- The weight tile's entry (q, d) is the weight matrix's entry (col, d). -/
theorem w_at (c : Dev nD) (t : Fin cfg0.N) (q : Fin 512) (d : Fin 4096) :
    iblk m c 1 t (ix2 q d) = V m c main_arg1 (ix2 (col t q) d) := by
  obtain ⟨-, -, e0, e1, -⟩ := tile_of_point t
  show V m c main_arg1 (((cfg0.win 1).blk t).view.emb (ix2 q d)) = V m c main_arg1 (ix2 (col t q) d)
  refine congrArg (V m c main_arg1) (funext fun a => Fin.ext ?_)
  match a with
  | ⟨0, _⟩ => show win0_1.index t (0 : Fin 2) * 512 + 1 * q.val = t.val / 16 * 512 + q.val; omega
  | ⟨1, _⟩ => show win0_1.index t (1 : Fin 2) * 4096 + 1 * d.val = d.val; omega

/-- The factor A is staged whole: entry (r, d) is its entry (r, d). -/
theorem a_at (c : Dev nD) (t : Fin cfg0.N) (r : Fin 16) (d : Fin 4096) :
    iblk m c 2 t (ix2 r d) = V m c main_arg3 (ix2 r d) := by
  obtain ⟨-, -, -, -, e0, e1, -⟩ := tile_of_point t
  show V m c main_arg3 (((cfg0.win 2).blk t).view.emb (ix2 r d)) = V m c main_arg3 (ix2 r d)
  refine congrArg (V m c main_arg3) (funext fun a => Fin.ext ?_)
  match a with
  | ⟨0, _⟩ => show win0_2.index t (0 : Fin 2) * 16 + 1 * r.val = r.val; omega
  | ⟨1, _⟩ => show win0_2.index t (1 : Fin 2) * 4096 + 1 * d.val = d.val; omega

/-- The tile of the factor B: entry (q, r) is its entry (col, r). -/
theorem b_at (c : Dev nD) (t : Fin cfg0.N) (q : Fin 512) (r : Fin 16) :
    iblk m c 3 t (ix2 q r) = V m c main_arg4 (ix2 (col t q) r) := by
  obtain ⟨-, -, -, -, -, -, e0, e1, -⟩ := tile_of_point t
  show V m c main_arg4 (((cfg0.win 3).blk t).view.emb (ix2 q r)) = V m c main_arg4 (ix2 (col t q) r)
  refine congrArg (V m c main_arg4) (funext fun a => Fin.ext ?_)
  match a with
  | ⟨0, _⟩ => show win0_3.index t (0 : Fin 2) * 512 + 1 * q.val = t.val / 16 * 512 + q.val; omega
  | ⟨1, _⟩ => show win0_3.index t (1 : Fin 2) * 16 + 1 * r.val = r.val; omega

/-- The layer's result on the matrices as the region finds them. -/
def result2d (c : Dev nD) : Buf (Elt Ideal) ((c : Thread nD τ).loc main_v1) :=
  Cert.Lora.flat (V m c main_v0) (V m c main_arg1) (V m c main_arg3) (V m c main_arg4)

/-- WHAT POINT t WRITES BACK is block t of the layer's result. -/
theorem flushed_eq (c : Dev nD) (t : Fin cfg0.N) :
    (dats m 0 c).flushed 4 t = ((cfg0.win 4).blk t).view.read (Elt Ideal) (result2d m c) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S512x4096) zero_offsets,
    View.ld_unit_zero (S := S16x4096) zero_offsets, View.ld_unit_zero (S := S512x16) zero_offsets]
  funext j
  obtain ⟨p, q, rfl⟩ : ∃ (p : Fin 256) (q : Fin 512), j = ix2 p q := ⟨j 0, j 1, eq_ix2 j⟩
  show k0_pay1 (F := Ideal) (iblk m c 0 t) (iblk m c 1 t) (iblk m c 2 t) (iblk m c 3 t) (ix2 p q)
    = result2d m c (((cfg0.win 4).blk t).view.emb (ix2 p q))
  refine (TileValue.tile_at (iblk m c 0 t) (iblk m c 1 t) (iblk m c 2 t) (iblk m c 3 t) p q).trans ?_
  rw [out_at t p q]
  show _ = Cert.Lora.entry (fun d => V m c main_v0 (ix2 (row t p) d)) (V m c main_arg1) (V m c main_arg3) (V m c main_arg4) (col t q)
  unfold Cert.Lora.entry
  simp only [x_at m c t, w_at m c t, a_at m c t, b_at m c t]

end Cert.KernelIdeal.TileReads

end
-- ==== Proof.ArrayValue.lean ====
/-
  From tiles to the whole result, and through the reshapes around the region.

  The 512 output tiles of 256 × 512 entries tile the [4096, 16384] result matrix: entry (r, c) lies in the tile of
  the point with row tile r div 256 and column tile c div 512, that is point (c div 512)·16 + r div 256. Every point
  writes its tile back, and each tile is the matching block of the layer's result, so after the run the matrix IS
  the layer's result on the activation matrix as the region found it. That matrix is the [2, 2048, 4096] argument
  listed row by row, and the program's result is the result matrix listed back as [2, 2048, 16384]; by the
  specification's reshape lemma this is the layer on the batch. The bias argument is passed through untouched.
-/
import proofs.«141950_j82660940578996_1_alg».proof.Proof.Gen.KernelIdeal.Frame
import proofs.«141950_j82660940578996_1_alg».proof.Proof.TileReads
import proofs.«141950_j82660940578996_1_alg».proof.Proof.LoraSpec
import Idealize.ShloMosaic.Lib.Pipeline.Value
import Idealize.ShloMosaic.Lib.StableHlo.Run

noncomputable section

namespace Cert.KernelIdeal.ArrayValue

open Cert.KernelIdeal Cert.KernelIdeal.Gen Cert.KernelIdeal.TileReads
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- An entry of the result matrix is in point t's tile iff each coordinate is in the tile's range on its axis. -/
theorem mem_tile (t : Fin cfg0.N) (i : S4096x16384.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v1).slice (win0_4.rect t)).set ↔ _
  rw [View.set_slice_whole, Rect.mem_set_unit]
  exact Iff.rfl

/-- Every entry of the result matrix is in some point's tile, and that point writes its tile back. -/
theorem tiles_cover (i : S4096x16384.Idx) :
    ∃ t : Fin cfg0.N, (cfg0.win 4).flush t = true ∧ i ∈ ((cfg0.win 4).blk t).view.set := by
  have hi0 : (i 0).val < 4096 := (i 0).isLt
  have hi1 : (i 1).val < 16384 := (i 1).isLt
  obtain ⟨t, ht⟩ : ∃ t : Fin cfg0.N, t.val = (i 1).val / 512 * 16 + (i 0).val / 256 :=
    ⟨⟨(i 1).val / 512 * 16 + (i 0).val / 256, lt_of_lt_of_eq (by omega) N_0.symm⟩, rfl⟩
  obtain ⟨-, -, -, -, -, -, -, -, e0, e1⟩ := tile_of_point t
  refine ⟨t, flush0_4 t, ?_⟩
  rw [mem_tile]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 512 ≤ (i 1).val ∧ (i 1).val < win0_4.index t (1 : Fin 2) * 512 + 512; omega

/-- THE RESULT MATRIX after the run is the layer's result on the matrices as the region found them. -/
theorem matrix_after (c : Dev nD) : (dats m 0 c).arrAt 4 cfg0.N = result2d m c :=
  (dats m 0 c).arrAt_eq_of_cover 4 (result2d m c) (fun t _ => flushed_eq m c t) tiles_cover

/-- The region finds the activations listed as a matrix: the one operation before it is that reshape. -/
theorem rows_at_entry (c : Dev nD) :
    (V m c main_v0 : S4096x4096.Idx → EReal)
      = shapeCast S4096x4096 (m ((c : Thread nD τ).loc main_arg0)) shapeCasts_S2x2048x4096_S4096x4096 := by
  show StableHlo.after hostOps0 (fun b => m (c, b)) (Proc.devRef .tc main_v0) = _
  after_results
  rfl

/-- So the result matrix is the layer on the launch contents, the activations listed as a matrix. -/
theorem result2d_eq (c : Dev nD) :
    result2d m c = Cert.Lora.flat (shapeCast S4096x4096 (m ((c : Thread nD τ).loc main_arg0)) shapeCasts_S2x2048x4096_S4096x4096)
      (m ((c : Thread nD τ).loc main_arg1)) (m ((c : Thread nD τ).loc main_arg3)) (m ((c : Thread nD τ).loc main_arg4)) := by
  unfold result2d
  rw [rows_at_entry m c, V_main_arg1 m c, V_main_arg3 m c, V_main_arg4 m c]

/-- The one operation after the region lists the result matrix back as a batch. -/
theorem batch_after (c : Dev nD) :
    Pipeline.afterTail₀ cfgs (dats m) 0 (V0 m) [hostOps1] c main_v2
      = shapeCast S2x2048x16384 ((dats m 0 c).arrAt 4 cfg0.N) shapeCasts_S4096x16384_S2x2048x16384 := by
  unfold Pipeline.afterTail₀
  show StableHlo.after hostOps1 _ (Proc.devRef .tc main_v2) = _
  after_results
  rw [Pipeline.withArrays_arr spec0 launch0.win.arr_inj c _ _ 4]
  rfl

/-- THE PROGRAM'S RESULT is the layer on the batch of the launch contents. -/
theorem result_eq (c : Dev nD) :
    Pipeline.afterTail₀ cfgs (dats m) 0 (V0 m) [hostOps1] c main_v2
      = Cert.Lora.batched (m ((c : Thread nD τ).loc main_arg0)) (m ((c : Thread nD τ).loc main_arg1))
          (m ((c : Thread nD τ).loc main_arg3)) (m ((c : Thread nD τ).loc main_arg4)) := by
  rw [batch_after m c, matrix_after m c, result2d_eq m c]
  exact Cert.Lora.batched_of_flat _ _ _ _ _ _

/-- Every weakly fair execution terminates with the result at the layer on the batch, the bias where it was, and
    every argument unchanged. -/
theorem run : θ_run defs (onTc (τ := τ) (main (F := Ideal))) ⟨m, fun _ => 0, ρ⟩ fun r => ∀ c : Dev nD,
      r.2.mem ((c : Thread nD τ).loc main_v2) = Cert.Lora.batched (m ((c : Thread nD τ).loc main_arg0)) (m ((c : Thread nD τ).loc main_arg1))
          (m ((c : Thread nD τ).loc main_arg3)) (m ((c : Thread nD τ).loc main_arg4))
      ∧ r.2.mem ((c : Thread nD τ).loc main_arg2) = m ((c : Thread nD τ).loc main_arg2)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v2 (Pipeline.mem_restRefs_of main_v2 (by decide) (by decide))).trans (result_eq m c),
      ((h c).2 main_arg2 (Pipeline.mem_restRefs_of main_arg2 (by decide) (by decide))).trans (W_main_arg2 m (dats m) c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.ArrayValue

end
-- ==== Proof.RefValue.lean ====
/-
  The reference computes the layer on the batch, entry by entry.

  Its three contractions read: the activations' row (b, s) against weight row o over the 4096 features; the same row
  against row r of the factor A; and that [2, 2048, 16] intermediate's row (b, s) against row o of the factor B over
  the 16 ranks. The last is scaled by the constant 2 and added to the first: entry (b, s, o) is

      ∑_d x[b, s, d]·W[o, d] + ( ∑_r ( ∑_d x[b, s, d]·A[r, d] ) · B[o, r] ) · 2,

  which is the layer's value at row (b, s), feature o.
-/
import proofs.«141950_j82660940578996_1_alg».proof.Proof.Gen.ReferenceIdeal.Read
import proofs.«141950_j82660940578996_1_alg».proof.Proof.LoraSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The base projection reads activation row (b, s) … -/
theorem base_lhs (bb : Fin 2) (s : Fin 2048) (o : Fin 16384) (k : Fin 4096) : lidx_main_v0 (ix3 bb s o) k = ix3 bb s k :=
  funext fun a => Fin.ext (by match a with | ⟨0, _⟩ => rfl | ⟨1, _⟩ => rfl | ⟨2, _⟩ => rfl)
/-- … against weight row o. -/
theorem base_rhs (bb : Fin 2) (s : Fin 2048) (o : Fin 16384) (k : Fin 4096) : ridx_main_v0 (ix3 bb s o) k = ix2 o k :=
  funext fun a => Fin.ext (by match a with | ⟨0, _⟩ => rfl | ⟨1, _⟩ => rfl)
/-- The rank-16 intermediate at (b, s, r) reads activation row (b, s) … -/
theorem mid_lhs (bb : Fin 2) (s : Fin 2048) (r : Fin 16) (k : Fin 4096) : lidx_main_v1 (ix3 bb s r) k = ix3 bb s k :=
  funext fun a => Fin.ext (by match a with | ⟨0, _⟩ => rfl | ⟨1, _⟩ => rfl | ⟨2, _⟩ => rfl)
/-- … against row r of the factor A. -/
theorem mid_rhs (bb : Fin 2) (s : Fin 2048) (r : Fin 16) (k : Fin 4096) : ridx_main_v1 (ix3 bb s r) k = ix2 r k :=
  funext fun a => Fin.ext (by match a with | ⟨0, _⟩ => rfl | ⟨1, _⟩ => rfl)
/-- The correction reads the intermediate's row (b, s) … -/
theorem corr_lhs (bb : Fin 2) (s : Fin 2048) (o : Fin 16384) (r : Fin 16) : lidx_main_v2 (ix3 bb s o) r = ix3 bb s r :=
  funext fun a => Fin.ext (by match a with | ⟨0, _⟩ => rfl | ⟨1, _⟩ => rfl | ⟨2, _⟩ => rfl)
/-- … against row o of the factor B. -/
theorem corr_rhs (bb : Fin 2) (s : Fin 2048) (o : Fin 16384) (r : Fin 16) : ridx_main_v2 (ix3 bb s o) r = ix2 o r :=
  funext fun a => Fin.ext (by match a with | ⟨0, _⟩ => rfl | ⟨1, _⟩ => rfl)

/-- The reference's result is the layer on the batch. -/
theorem reference_eq (x : FVec Ideal S2x2048x4096 .f32) (w : FVec Ideal S16384x4096 .f32) (a : FVec Ideal S16x4096 .f32)
    (b : FVec Ideal S16384x16 .f32) : val_main_v5 (F := Ideal) x w a b = Cert.Lora.batched x w a b := by
  funext i
  obtain ⟨bb, s, o, rfl⟩ : ∃ (bb : Fin 2) (s : Fin 2048) (o : Fin 16384), i = ix3 bb s o := ⟨i 0, i 1, i 2, eq_ix3 i⟩
  rw [val_main_v5_apply, val_main_v4_apply, val_main_v0_apply, val_main_v2_apply, val_main_v3_apply, val_main_cst_apply]
  simp only [val_main_v1_apply, base_lhs, base_rhs, corr_lhs, corr_rhs, mid_lhs, mid_rhs]
  rfl

end Cert.ReferenceIdeal.RefValue

end
-- ==== Proof.lean ====
/-
  A low-rank-adapted column-parallel linear layer: the tiled kernel computes what the three-contraction reference does.

  For activations x [2, 2048, 4096], weights W [16384, 4096], low-rank factors A [16, 4096] and B [16384, 16], both
  programs return, at batch b, position s and output feature o,

      ∑_d x[b, s, d]·W[o, d]  +  ( ∑_r ( ∑_d x[b, s, d]·A[r, d] ) · B[o, r] ) · 2,

  and pass the bias through unchanged. The kernel lists the activations as a [4096, 4096] matrix, cuts the
  [4096, 16384] result into 16 × 32 tiles of 256 × 512 entries, and at each tile forms the three products on whole
  4096-feature rows (no accumulation across grid points), after narrowing every factor to the matrix unit's input
  format — the identity on extended reals. The reference contracts the whole arrays. Entry by entry the two are the
  same sums of the same products in the same grouping, so no law of arithmetic beyond reading the arrays at matching
  indices is needed, and the inputs' finiteness is never used. The idealization rewrote nothing, so there is nothing
  to preserve.

  The modules: TileProducts (each of the three tile products at an entry), TileValue (the stored tile at an entry),
  LoraSpec (the layer as one function; rows listed as a matrix and back), TileReads (where a point's tiles sit in
  their arrays; what a point writes back), ArrayValue (the tiles cover the result; the reshapes before and after the
  region; the kernel's run), RefValue (the reference's three contractions at an entry).
-/
import proofs.«141950_j82660940578996_1_alg».proof.Defs
import proofs.«141950_j82660940578996_1_alg».proof.Proof.Gen.Kernel
import proofs.«141950_j82660940578996_1_alg».proof.Proof.Gen.Kernel.Skeleton
import proofs.«141950_j82660940578996_1_alg».proof.Proof.Gen.Kernel.Launch
import proofs.«141950_j82660940578996_1_alg».proof.Proof.Gen.Kernel.Points
import proofs.«141950_j82660940578996_1_alg».proof.Proof.Gen.Kernel.Frame
import proofs.«141950_j82660940578996_1_alg».proof.Proof.Gen.KernelIdeal
import proofs.«141950_j82660940578996_1_alg».proof.Proof.Gen.KernelIdeal.Skeleton
import proofs.«141950_j82660940578996_1_alg».proof.Proof.Gen.KernelIdeal.Launch
import proofs.«141950_j82660940578996_1_alg».proof.Proof.Gen.KernelIdeal.Points
import proofs.«141950_j82660940578996_1_alg».proof.Proof.Gen.KernelIdeal.Frame
import proofs.«141950_j82660940578996_1_alg».proof.Proof.Gen.ReferenceIdeal
import proofs.«141950_j82660940578996_1_alg».proof.Proof.Gen.Pre_finite_inputs
import proofs.«141950_j82660940578996_1_alg».proof.Proof.Gen.ReferenceIdeal.Run
import proofs.«141950_j82660940578996_1_alg».proof.Proof.Gen.ReferenceIdeal.Read
import proofs.«141950_j82660940578996_1_alg».proof.Proof.ArrayValue
import proofs.«141950_j82660940578996_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments, both programs end with the layer on the batch as the first
    result and the bias as the second. -/
theorem algebraic : Cert.algebraic_KernelIdeal_ReferenceIdeal := by
  intro m ρ m' ρ' _ hagree
  refine ⟨fun c => Cert.Lora.batched
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg2),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.RefValue.reference_eq,
      (hagree c).1, (hagree c).2.1, (hagree c).2.2.2.1, (hagree c).2.2.2.2]
  · exact (hagree c).2.2.1

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
